-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3200000 : S_.BroadcastsInDim S3200000 (![] : Fin 0 → Fin S3200000.rank)
  reducesTo_S3200000_S_d0 : S3200000.ReducesTo [0] S_

variable [Facts]

def fn_part1 {F : FTy → Type} [FloatOps F] (main_arg4 : FVec F S64 .f32) (main_arg6 : FVec F S3200000 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3200000 .f32 := Host.absf main_arg6
  let main_cst_8 : FVec F S_ .f32 := constant S_ .f32 0x7F800000#32
  let main_v25 : FVec F S3200000 .f32 := broadcastInDim S3200000 ![] bcast_S_S3200000 main_cst_8
  let main_v26 : IVec S3200000 1 := cmpf .olt main_v24 main_v25
  let main_c_9 : IVec S_ 1 := constantI S_ 1 1#1
  let main_v27 : IVec S_ 1 := (fun x v => Host.reduce IntOp.andi x v reducesTo_S3200000_S_d0 h_S_) main_v26 main_c_9
  let main_v28 : IVec S_ 1 := andi main_v23 main_v27
  main_v28

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : IVec S2x3200000 32) (main_arg6 : FVec F S3200000 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg6 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S3200000 : Shape := ⟨1, ![3200000]⟩
abbrev S1x128 : Shape := ⟨2, ![1, 128]⟩
abbrev S100000x64 : Shape := ⟨2, ![100000, 64]⟩
abbrev S5000x512 : Shape := ⟨2, ![5000, 512]⟩
abbrev S5000x64 : Shape := ⟨2, ![5000, 64]⟩
abbrev S5000x128 : Shape := ⟨2, ![5000, 128]⟩
abbrev S1x3200000 : Shape := ⟨2, ![1, 3200000]⟩
abbrev S_ : Shape := ⟨0, ![]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 32
  | .vmem => 7
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x3200000, .i32⟩
  | .hbm, ⟨6, _⟩ => ⟨S3200000, .f32⟩
  | .hbm, ⟨7, _⟩ => ⟨S1x128, .f32⟩
  | .hbm, ⟨8, _⟩ => ⟨S100000x64, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S3200000x1, .f32⟩
  | .hbm, ⟨23, _⟩ => ⟨S3200000x64, .f32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S1x128, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x512_S512x128_S5000x128_1_0_0_1_n_n_wf : DotDims.WF S5000x512 S512x128 S5000x128 [1] [0] [0] [1] [] []
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S3200000 : Shape := ⟨1, ![3200000]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x3200000 : Shape := ⟨2, ![1, 3200000]⟩
abbrev S3200000x1 : Shape := ⟨2, ![3200000, 1]⟩
abbrev S3200000x64 : Shape := ⟨2, ![3200000, 64]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x3200000, .i32⟩
  | .hbm, ⟨6, _⟩ => ⟨S3200000, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S100000x128, .f32⟩
  | .hbm, ⟨13, _⟩ => ⟨S100000x128, .f32⟩
  | .hbm, ⟨14, _⟩ => ⟨S100000x64, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .i32⟩
  | .hbm, ⟨20, _⟩ => ⟨S3200000, .i32⟩
  | .hbm, ⟨21, _⟩ => ⟨S3200000, .i1⟩
  | .hbm, ⟨22, _⟩ => ⟨S_, .i32⟩
  | .hbm, ⟨23, _⟩ => ⟨S3200000, .i32⟩
  | .hbm, ⟨24, _⟩ => ⟨S3200000, .i32⟩
  | .hbm, ⟨25, _⟩ => ⟨S3200000, .i32⟩
  | .hbm, ⟨26, _⟩ => ⟨S3200000x1, .i32⟩
  | .hbm, ⟨27, _⟩ => ⟨S3200000x64, .f32⟩
  | .hbm, ⟨28, _⟩ => ⟨S3200000x1, .f32⟩
  | .hbm, ⟨29, _⟩ => ⟨S3200000x64, .f32⟩
  | .hbm, ⟨30, _⟩ => ⟨S3200000x64, .f32⟩
  | .hbm, ⟨31, _⟩ => ⟨S_, .f32⟩
  | .hbm, ⟨32, _⟩ => ⟨S100000x64, .f32⟩
  | .hbm, ⟨33, _⟩ => ⟨S3200000x1, .i32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.DenseRow.lean ====
/-
  One row of node features through two dense layers with a rectifier between them, on the extended
  reals.  With `x` the row (512 features), `W1` the first weight matrix (512 × 128), `b1` its bias,
  `W2` the second weight matrix (128 × 64), entry `q` of the result is

      Σ_k  max (Σ_l x_l · W1[l, k] + b1_k, 0) · W2[k, q].

  Both programs compute exactly this for every row of the feature matrix: one as two whole matrix
  products, the other block of rows by block of rows.  Neither sum is reordered, nothing is
  distributed, so no finiteness of the entries is used anywhere.
-/
import Idealize.ShloMosaic.PureOps.Ideal
import Idealize.ShloMosaic.Lib.ValueIdx

noncomputable section

namespace Cert.Dense

open Idealize.ShloMosaic Idealize.ShloMosaic.ValueIdx

/-- Entry `q` of one row `xr` sent through `max (· W1 + b1) 0` and then `· W2`. -/
def row (xr : Fin 512 → EReal) (W1 : (⟨2, ![512, 128]⟩ : Shape).Idx → EReal) (b1 : Fin 128 → EReal)
    (W2 : (⟨2, ![128, 64]⟩ : Shape).Idx → EReal) (q : Fin 64) : EReal :=
  ∑ k : Fin 128, max ((∑ l : Fin 512, xr l * W1 (ix2 l k)) + b1 k) 0 * W2 (ix2 k q)

/-- The whole array: row `i 0` of the features through the two layers, read at column `i 1`. -/
def rows (x : (⟨2, ![100000, 512]⟩ : Shape).Idx → EReal) (W1 : (⟨2, ![512, 128]⟩ : Shape).Idx → EReal)
    (b1 : Fin 128 → EReal) (W2 : (⟨2, ![128, 64]⟩ : Shape).Idx → EReal) :
    (⟨2, ![100000, 64]⟩ : Shape).Idx → EReal :=
  fun i => row (fun l => x (ix2 (⟨(i 0).val, (i 0).isLt⟩ : Fin 100000) l)) W1 b1 W2 ⟨(i 1).val, (i 1).isLt⟩

/-- The array at the index built from a row and a column. -/
theorem rows_ix2 (x : (⟨2, ![100000, 512]⟩ : Shape).Idx → EReal) (W1 : (⟨2, ![512, 128]⟩ : Shape).Idx → EReal)
    (b1 : Fin 128 → EReal) (W2 : (⟨2, ![128, 64]⟩ : Shape).Idx → EReal) (r : Fin 100000) (q : Fin 64) :
    rows x W1 b1 W2 (ix2 r q) = row (fun l => x (ix2 r l)) W1 b1 W2 q := rfl

end Cert.Dense

end
-- ==== Proof.RefDense.lean ====
/-
  The reference's dense part read at an entry, and the rest of the reference named once.
  The reference forms `x · W1` whole, adds the bias to every row, takes the maximum with zero and
  multiplies by `W2`; entry `(r, q)` of that array is row `r` of the features through the two
  layers at column `q`.  Everything the reference does afterwards — gather a row for the source
  node of each edge, scale it by the edge's weight, add the scaled rows up by destination node, add
  the output bias — depends on the dense part only through that array, so it is named here as one
  function of it and never opened.
-/
import proofs.«406509_j75488345194747_3_alg».proof.Proof.Gen.ReferenceIdeal.Read
import proofs.«406509_j75488345194747_3_alg».proof.Proof.DenseRow

noncomputable section

namespace Cert.ReferenceIdeal.Dense

open Cert.ReferenceIdeal Cert.ReferenceIdeal.Gen Cert.ReferenceIdeal.Read Idealize.ShloMosaic Idealize.ShloMosaic.ValueIdx

/-! ## Where each stage reads its operands -/

/-- The first product's left operand for hidden unit `k` of row `i 0`: the features of that row. -/
theorem feat_idx (i : S100000x64.Idx) (k : Fin 128) (l : Fin 512) :
    lidx_main_v0 (lidx_main_v5 i k) l = ix2 (⟨(i 0).val, (i 0).isLt⟩ : Fin 100000) l :=
  funext fun a => Fin.ext (by match a with | ⟨0, _⟩ => rfl | ⟨1, _⟩ => rfl)

/-- Its right operand: column `k` of the first weight matrix. -/
theorem w1_idx (i : S100000x64.Idx) (k : Fin 128) (l : Fin 512) :
    ridx_main_v0 (lidx_main_v5 i k) l = ix2 l k :=
  funext fun a => Fin.ext (by match a with | ⟨0, _⟩ => rfl | ⟨1, _⟩ => rfl)

/-- The bias broadcast over the rows reads entry `k` of the bias. -/
theorem b1_idx (i : S100000x64.Idx) (k : Fin 128) :
    idx_main_v1 (idx_main_v2 (lidx_main_v5 i k)) = ix1 k :=
  funext fun a => Fin.ext (by match a with | ⟨0, _⟩ => rfl)

/-- The second product's right operand: entry `(k, i 1)` of the second weight matrix. -/
theorem w2_idx (i : S100000x64.Idx) (k : Fin 128) :
    ridx_main_v5 i k = ix2 k (⟨(i 1).val, (i 1).isLt⟩ : Fin 64) :=
  funext fun a => Fin.ext (by match a with | ⟨0, _⟩ => rfl | ⟨1, _⟩ => rfl)

/-! ## The dense part is the two layers, row by row -/

theorem support_eq (x0 : (⟨S100000x512, .f32⟩ : BufTy).Contents (Elt Ideal)) (x1 : (⟨S512x128, .f32⟩ : BufTy).Contents (Elt Ideal))
    (x2 : (⟨S128, .f32⟩ : BufTy).Contents (Elt Ideal)) (x3 : (⟨S128x64, .f32⟩ : BufTy).Contents (Elt Ideal)) :
    val_main_v5 (F := Ideal) x0 x1 x2 x3 = Cert.Dense.rows x0 x1 (fun k => x2 (ix1 k)) x3 := by
  funext i
  rw [val_main_v5_apply]
  unfold Cert.Dense.rows Cert.Dense.row
  refine Finset.sum_congr rfl fun k _ => ?_
  rw [val_main_v4_apply, val_main_v3_apply, val_main_v0_apply, val_main_v2_apply, val_main_v1_apply,
    val_main_call0_v0_apply, val_main_call0_cst_apply]
  simp only [feat_idx, w1_idx, b1_idx, w2_idx, Ideal.maximumf_def, Ideal.addf_def, Ideal.ofBits_def,
    Ideal.ofBits_zero_f32]

/-! ## The rest of the reference, as one function of the dense part -/

/-- Message passing over the edges and the output bias, applied to an array `s` of per-node rows:
    row `src e` of `s` scaled by the weight of edge `e`, summed over the edges into row `dst e`, plus `b2`. -/
def aggregate (s : FVec Ideal S100000x64 .f32) (x4 : FVec Ideal S64 .f32)
    (x5 : IVec S2x3200000 32) (x6 : FVec Ideal S3200000 .f32) : FVec Ideal S100000x64 .f32 :=
  addf (F := Ideal) (Host.scatterAdd (F := Ideal) scatter_S100000x64_S3200000x1_S3200000x64_1_0_0_1 (val_main_v20 (F := Ideal)) (val_main_v21 (F := Ideal) x5)
      (mulf (F := Ideal) (Host.gather (α := Ideal .f32) gather_S100000x64_S3200000x1_S3200000x64_1_0_n_n_0_1_164 s (val_main_v15 (F := Ideal) x5)) (val_main_v18 (F := Ideal) x6)))
    (val_main_v24 (F := Ideal) x4)

/-- The reference's result is that function of its dense part. -/
theorem result_eq (x0 : (⟨S100000x512, .f32⟩ : BufTy).Contents (Elt Ideal)) (x1 : (⟨S512x128, .f32⟩ : BufTy).Contents (Elt Ideal)) (x2 : (⟨S128, .f32⟩ : BufTy).Contents (Elt Ideal))
    (x3 : (⟨S128x64, .f32⟩ : BufTy).Contents (Elt Ideal)) (x4 : (⟨S64, .f32⟩ : BufTy).Contents (Elt Ideal)) (x5 : (⟨S2x3200000, .i32⟩ : BufTy).Contents (Elt Ideal)) (x6 : (⟨S3200000, .f32⟩ : BufTy).Contents (Elt Ideal)) :
    val_main_v25 (F := Ideal) x0 x1 x2 x3 x4 x5 x6 = aggregate (val_main_v5 (F := Ideal) x0 x1 x2 x3) x4 x5 x6 := rfl

end Cert.ReferenceIdeal.Dense

end
-- ==== Proof.KernelRow.lean ====
/-
  What the kernel's body stores, read at an entry.  The body takes a block of 5000 rows of the
  features and the whole of `W1`, the bias row and `W2`; at the ideal instance the narrowing of the
  matrix products' operands is the identity and a matrix product into a zero accumulator is the
  plain sum over the contracted axis, so entry `(p, q)` of the stored block is row `p` of the block
  through the two layers, at column `q`.
-/
import proofs.«406509_j75488345194747_3_alg».proof.Proof.Gen.KernelIdeal.Skeleton
import proofs.«406509_j75488345194747_3_alg».proof.Proof.DenseRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockRow

open Cert.KernelIdeal Cert.KernelIdeal.Gen Idealize.ShloMosaic Idealize.ShloMosaic.ValueIdx

/-! ## The two matrix products' operand indices, axis by axis -/

theorem lhs_hid_0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_hid_1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs_hid_0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs_hid_1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

theorem lhs_out_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_out_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_out_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_out_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## Each matrix product at an entry -/

/-- The first product at row `p`, hidden unit `c`: the sum over the 512 features. -/
theorem hid_apply (a : FVec Ideal S5000x512 .bf16) (b : FVec Ideal S512x128 .bf16) (p : Fin 5000) (c : Fin 128) :
    matmul dot_S5000x512_S512x128_S5000x128_1_0_0_1_n_n none a b (constant (F := Ideal) S5000x128 .f32 0x00000000#32) (ix2 p c)
      = ∑ k : Fin 512, a (ix2 p k) * b (ix2 k c) := by
  simp only [matmul]
  rw [Ideal.matmul_constant_zero_apply, ← Equiv.sum_comp (ValueIdx.contrEquiv1 dot_S5000x512_S512x128_S5000x128_1_0_0_1_n_n 512 rfl rfl).symm]
  refine Finset.sum_congr rfl fun k _ => ?_
  have hk := ValueIdx.contrEquiv1_symm_val dot_S5000x512_S512x128_S5000x128_1_0_0_1_n_n 512 rfl rfl k
  have el : dot_S5000x512_S512x128_S5000x128_1_0_0_1_n_n.lhsIdx (ix2 p c) ((ValueIdx.contrEquiv1 dot_S5000x512_S512x128_S5000x128_1_0_0_1_n_n 512 rfl rfl).symm k) = ix2 p k := funext fun ax => Fin.ext (by
    match ax with
    | ⟨0, _⟩ => exact lhs_hid_0 _ _
    | ⟨1, _⟩ => exact (lhs_hid_1 _ _).trans hk)
  have er : dot_S5000x512_S512x128_S5000x128_1_0_0_1_n_n.rhsIdx (ix2 p c) ((ValueIdx.contrEquiv1 dot_S5000x512_S512x128_S5000x128_1_0_0_1_n_n 512 rfl rfl).symm k) = ix2 k c := funext fun ax => Fin.ext (by
    match ax with
    | ⟨0, _⟩ => exact (rhs_hid_0 _ _).trans hk
    | ⟨1, _⟩ => exact rhs_hid_1 _ _)
  rw [el, er]

/-- The second product at row `p`, class `c`: the sum over the 128 hidden units. -/
theorem out_apply (a : FVec Ideal S5000x128 .bf16) (b : FVec Ideal S128x64 .bf16) (p : Fin 5000) (c : Fin 64) :
    matmul dot_S5000x128_S128x64_S5000x64_1_0_0_1_n_n none a b (constant (F := Ideal) S5000x64 .f32 0x00000000#32) (ix2 p c)
      = ∑ k : Fin 128, a (ix2 p k) * b (ix2 k c) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p c) ((ValueIdx.contrEquiv1 dot_S5000x128_S128x64_S5000x64_1_0_0_1_n_n 128 rfl rfl).symm k) = ix2 p k := funext fun ax => Fin.ext (by
    match ax with
    | ⟨0, _⟩ => exact lhs_out_0 _ _
    | ⟨1, _⟩ => exact (lhs_out_1 _ _).trans hk)
  have er : dot_S5000x128_S128x64_S5000x64_1_0_0_1_n_n.rhsIdx (ix2 p c) ((ValueIdx.contrEquiv1 dot_S5000x128_S128x64_S5000x64_1_0_0_1_n_n 128 rfl rfl).symm k) = ix2 k c := funext fun ax => Fin.ext (by
    match ax with
    | ⟨0, _⟩ => exact (rhs_out_0 _ _).trans hk
    | ⟨1, _⟩ => exact rhs_out_1 _ _)
  rw [el, er]

/-! ## The stored block at an entry -/

/-- Entry `(p, q)` of what the body stores is row `p` of the feature block through the two layers. -/
theorem pay_apply (x0 : Vec Ideal S5000x512 .f32) (x1 : Vec Ideal S512x128 .f32) (x2 : Vec Ideal S1x128 .f32)
    (x3 : Vec Ideal S128x64 .f32) (p : Fin 5000) (q : Fin 64) :
    k0_pay1 (F := Ideal) x0 x1 x2 x3 (ix2 p q)
      = Cert.Dense.row (fun l => x0 (ix2 p l)) x1 (fun k => x2 (ix2 (0 : Fin 1) k)) x3 q := by
  unfold k0_pay1 Cert.Dense.row
  refine (out_apply _ _ p q).trans ?_
  refine Finset.sum_congr rfl fun k _ => ?_
  show max (matmul dot_S5000x512_S512x128_S5000x128_1_0_0_1_n_n none (truncf .bf16 x0 bitsLt_bf16_f32) (truncf .bf16 x1 bitsLt_bf16_f32) (constant (F := Ideal) S5000x128 .f32 0x00000000#32) (ix2 p k)
        + broadcastTo S5000x128 (shapeCast S1x128 x2 shapeCasts_S1x128_S1x128) broadcasts_S1x128_S5000x128 (ix2 p k))
      (Ideal.ofBits .f32 0x00000000#32) * x3 (ix2 k q) = _
  rw [hid_apply, broadcastTo_1b_ab_apply, shapeCast_self, Ideal.ofBits_zero_f32]
  rfl

end Cert.KernelIdeal.BlockRow

end
-- ==== Proof.KernelSupport.lean ====
/-
  The array the kernel's region leaves.  The region walks the 20 blocks of 5000 rows of the
  features; at block `t` the body sees rows `5000 t … 5000 t + 4999` of the features and the whole of
  `W1`, the bias row and `W2`, and writes rows `5000 t … 5000 t + 4999` of the result.  Each written
  entry is its own row of the features through the two layers, so every block written is the
  corresponding block of ONE array — the two layers applied row by row to the whole feature
  matrix — and since the 20 blocks cover all 100000 rows, that array is what the region leaves.
-/
import proofs.«406509_j75488345194747_3_alg».proof.Proof.Gen.KernelIdeal.Frame
import proofs.«406509_j75488345194747_3_alg».proof.Proof.KernelRow
import Idealize.ShloMosaic.Lib.Pipeline.Value
import Idealize.ShloMosaic.Lib.ValueLayout

set_option maxRecDepth 16384

noncomputable section

namespace Cert.KernelIdeal.Support

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The grid has 20 points. -/
theorem lt20 (t : Fin cfg0.N) : t.val < 20 := lt_of_lt_of_eq t.isLt (N_0 : cfg0.N = 20)

/-- The index maps over the grid: the feature window and the result window move down one block of
    rows per point; the weights and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The arrays as the region finds them -/

abbrev feats (c : Dev nD) : S100000x512.Idx → EReal := V m c main_arg0
abbrev w1 (c : Dev nD) : S512x128.Idx → EReal := V m c main_arg1
abbrev brow (c : Dev nD) : S1x128.Idx → EReal := V m c main_v0
abbrev w2 (c : Dev nD) : S128x64.Idx → EReal := V m c main_arg3

/-- The two layers applied to every row of the features, with the bias read off its one-row array. -/
def dense (c : Dev nD) : S100000x64.Idx → EReal :=
  Cert.Dense.rows (feats m c) (w1 m c) (fun k => brow m c (ix2 (0 : Fin 1) k)) (w2 m c)

/-! ## Each input block is rows of its array -/

/-- Entry `(p, l)` of the feature block at point `t` is entry `(5000 t + p, l)` of the features. -/
theorem feat_blk (c : Dev nD) (t : Fin cfg0.N) (p : Fin 5000) (l : Fin 512) (r : Fin 100000)
    (hr : r.val = 5000 * t.val + p.val) :
    (iblk m c 0 t : Vec Ideal S5000x512 .f32) (ix2 p l) = feats m c (ix2 r l) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * l.val = l.val; rw [e1]; omega

/-- The first weight matrix's block is the matrix, at every point. -/
theorem w1_blk (c : Dev nD) (t : Fin cfg0.N) : (iblk m c 1 t : Vec Ideal S512x128 .f32) = w1 m c := by
  obtain ⟨-, -, e0, e1, -⟩ := idx_facts t
  funext y
  unfold iblk
  rw [View.read_apply]
  show V m c main_arg1 _ = V m c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

/-- The bias row's block is the bias row. -/
theorem brow_blk (c : Dev nD) (t : Fin cfg0.N) : (iblk m c 2 t : Vec Ideal S1x128 .f32) = brow m c := by
  obtain ⟨-, -, -, -, e0, e1, -⟩ := idx_facts t
  funext y
  unfold iblk
  rw [View.read_apply]
  show V m c main_v0 _ = V m c main_v0 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight matrix's block is the matrix. -/
theorem w2_blk (c : Dev nD) (t : Fin cfg0.N) : (iblk m c 3 t : Vec Ideal S128x64 .f32) = w2 m c := by
  obtain ⟨-, -, -, -, -, -, e0, e1, -⟩ := idx_facts t
  funext y
  unfold iblk
  rw [View.read_apply]
  show V m c main_arg3 _ = V m c main_arg3 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

/-! ## What a point writes back -/

/-- Entry `(p, q)` of the result block at point `t` sits at `(5000 t + p, q)` in the result array. -/
theorem out_emb (t : Fin cfg0.N) (p : Fin 5000) (q : Fin 64) (r : Fin 100000) (hr : r.val = 5000 * t.val + p.val) :
    ((cfg0.win 4).blk t).view.emb (ix2 p q) = (ix2 r q : S100000x64.Idx) := by
  obtain ⟨-, -, -, -, -, -, -, -, e0, e1⟩ := idx_facts t
  funext a
  apply Fin.ext
  match a with
  | ⟨0, _⟩ => show win0_4.index t (0 : Fin 2) * 5000 + 1 * p.val = r.val; rw [e0, hr]; omega
  | ⟨1, _⟩ => show win0_4.index t (1 : Fin 2) * 64 + 1 * q.val = q.val; rw [e1]; omega

/-- WHAT POINT `t` WRITES BACK is block `t` of `dense`. -/
theorem flushed_eq (c : Dev nD) (t : Fin cfg0.N) :
    (dats m 0 c).flushed 4 t = ((cfg0.win 4).blk t).view.read (Elt Ideal) (dense m c) := by
  show (cfg0.win 4).cut (grid0.coords t) ((dats m 0 c).after 4 t) = _
  rw [after0_4]
  unfold out0_4
  rw [View.canon_unit_zero hz]
  simp only [View.ld_unit_zero (S := S5000x512) hz, View.ld_unit_zero (S := S512x128) hz,
    View.ld_unit_zero (S := S1x128) hz, View.ld_unit_zero (S := S128x64) hz]
  funext j
  obtain ⟨p, q, rfl⟩ : ∃ (p : Fin 5000) (q : Fin 64), j = ix2 p q := ⟨j 0, j 1, eq_ix2 j⟩
  have ht := lt20 t
  have hp := p.isLt
  let r : Fin 100000 := ⟨5000 * t.val + p.val, by omega⟩
  show k0_pay1 (F := Ideal) (iblk m c 0 t) (iblk m c 1 t) (iblk m c 2 t) (iblk m c 3 t) (ix2 p q)
    = dense m c (((cfg0.win 4).blk t).view.emb (ix2 p q))
  rw [out_emb t p q r rfl]
  refine (Cert.KernelIdeal.BlockRow.pay_apply (iblk m c 0 t) (iblk m c 1 t) (iblk m c 2 t) (iblk m c 3 t) p q).trans ?_
  rw [w1_blk, brow_blk, w2_blk]
  unfold dense
  rw [Cert.Dense.rows_ix2]
  exact congrArg (fun xr => Cert.Dense.row xr (w1 m c) (fun k => brow m c (ix2 (0 : Fin 1) k)) (w2 m c) q)
    (funext fun l => feat_blk m c t p l r rfl)

/-! ## The blocks cover the array -/

/-- An index of the result array is in point `t`'s block iff each coordinate is in the block's range. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v1).slice (win0_4.rect t)).set ↔ _
  rw [View.set_slice_whole, Rect.mem_set_unit]
  exact Iff.rfl

/-- Row `r` is written by point `r / 5000`. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, -, -, e0, e1⟩ := idx_facts t
  have htv : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; rw [e0, htv]; omega
  | ⟨1, _⟩ => show win0_4.index t (1 : Fin 2) * 64 ≤ (i 1).val ∧ (i 1).val < win0_4.index t (1 : Fin 2) * 64 + 64; rw [e1]; omega

/-- THE ARRAY the region leaves: the two layers applied row by row to the features. -/
theorem final (c : Dev nD) : (dats m 0 c).arrAt 4 cfg0.N = dense m c :=
  (dats m 0 c).arrAt_eq_of_cover 4 (dense m c) (fun t _ => flushed_eq m c t) (cover)

end Cert.KernelIdeal.Support

end
-- ==== Proof.KernelTail.lean ====
/-
  The kernel's whole run, read.  Before the region the host reshapes the bias `b1` into a one-row
  array; the region leaves the two layers applied row by row to the features; after the region the
  host gathers a row of that array for the source node of every edge, scales it by the edge's
  weight, adds the scaled rows up by destination node and adds the output bias — the very
  operations the reference applies to its own dense part, so they are carried here as the one
  function `aggregate` of the array they are applied to and never opened.
-/
import proofs.«406509_j75488345194747_3_alg».proof.Proof.KernelSupport
import proofs.«406509_j75488345194747_3_alg».proof.Proof.RefDense
import Idealize.ShloMosaic.Lib.StableHlo.Run

set_option maxRecDepth 16384

noncomputable section

namespace Cert.KernelIdeal.Support

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, in terms of the arguments -/

/-- The one-row bias array is the bias reshaped: entry `(0, k)` is entry `k` of `b1`. -/
theorem brow_apply (c : Dev nD) (k : Fin 128) :
    brow m c (ix2 (0 : Fin 1) k) = (m ((c : Thread nD τ).loc main_arg2) : S128.Idx → EReal) (ix1 k) := by
  have e : (V m c main_v0 : S1x128.Idx → EReal)
      = shapeCast S1x128 (m ((c : Thread nD τ).loc main_arg2) : S128.Idx → EReal) shapeCasts_S128_S1x128 := by
    show StableHlo.after hostOps0 (fun b => m (c, b)) (Proc.devRef .tc main_v0) = _
    after_results
    rfl
  show (V m c main_v0 : S1x128.Idx → EReal) (ix2 (0 : Fin 1) k) = _
  rw [e]
  exact shapeCast_a_1a_apply _ shapeCasts_S128_S1x128 (0 : Fin 1) k

/-- What the region leaves, over the launch contents of the arguments. -/
theorem dense_eq (c : Dev nD) :
    dense m c = Cert.Dense.rows (m ((c : Thread nD τ).loc main_arg0)) (m ((c : Thread nD τ).loc main_arg1))
      (fun k => (m ((c : Thread nD τ).loc main_arg2) : S128.Idx → EReal) (ix1 k)) (m ((c : Thread nD τ).loc main_arg3)) := by
  unfold dense
  have e0 : feats m c = m ((c : Thread nD τ).loc main_arg0) := V_main_arg0 m c
  have e1 : w1 m c = m ((c : Thread nD τ).loc main_arg1) := V_main_arg1 m c
  have e3 : w2 m c = m ((c : Thread nD τ).loc main_arg3) := V_main_arg3 m c
  have e2 : (fun k => brow m c (ix2 (0 : Fin 1) k)) = fun k => (m ((c : Thread nD τ).loc main_arg2) : S128.Idx → EReal) (ix1 k) :=
    funext fun k => brow_apply m c k
  rw [e0, e1, e2, e3]

/-! ## The buffers when the region is left -/

/-- Core `c`'s buffers at the region's exit: the windows' arrays as the region leaves them, every other
    buffer as the region found it. -/
def exitVal (c : Dev nD) : Valuation τ sig (Elt Ideal) :=
  Pipeline.withArrays spec0 c (V0 m c) fun w => (dats m 0 c).arrAt w cfg0.N

theorem exit_dense (c : Dev nD) : exitVal m c (Proc.devRef .tc main_v1) = dense m c := by
  unfold exitVal
  exact (Pipeline.withArrays_arr spec0 winFacts0.arr_inj c (V0 m c) (fun w => (dats m 0 c).arrAt w cfg0.N) 4).trans (final m c)

theorem exit_arg4 (c : Dev nD) : exitVal m c (Proc.devRef .tc main_arg4) = m ((c : Thread nD τ).loc main_arg4) := by
  unfold exitVal
  exact (Pipeline.withArrays_of_ne spec0 c (V0 m c) _ main_arg4 (by exact (by decide : ∀ w, Pipeline.arrRef spec0 w ≠ main_arg4))).trans (V_main_arg4 m c)

theorem exit_arg5 (c : Dev nD) : exitVal m c (Proc.devRef .tc main_arg5) = m ((c : Thread nD τ).loc main_arg5) := by
  unfold exitVal
  exact (Pipeline.withArrays_of_ne spec0 c (V0 m c) _ main_arg5 (by exact (by decide : ∀ w, Pipeline.arrRef spec0 w ≠ main_arg5))).trans (V_main_arg5 m c)

theorem exit_arg6 (c : Dev nD) : exitVal m c (Proc.devRef .tc main_arg6) = m ((c : Thread nD τ).loc main_arg6) := by
  unfold exitVal
  exact (Pipeline.withArrays_of_ne spec0 c (V0 m c) _ main_arg6 (by exact (by decide : ∀ w, Pipeline.arrRef spec0 w ≠ main_arg6))).trans (V_main_arg6 m c)

/-! ## The host operations after the region -/

/-- The kernel's result. -/
def result (c : Dev nD) : FVec Ideal Cert.ReferenceIdeal.S100000x64 .f32 :=
  Cert.ReferenceIdeal.Dense.aggregate
    (Cert.Dense.rows (m ((c : Thread nD τ).loc main_arg0)) (m ((c : Thread nD τ).loc main_arg1))
      (fun k => (m ((c : Thread nD τ).loc main_arg2) : S128.Idx → EReal) (ix1 k)) (m ((c : Thread nD τ).loc main_arg3)))
    (m ((c : Thread nD τ).loc main_arg4)) (m ((c : Thread nD τ).loc main_arg5)) (m ((c : Thread nD τ).loc main_arg6))

/-- The operations after the region, run from the exit contents, leave `result` in the result buffer. -/
theorem tail_eq (c : Dev nD) :
    Pipeline.afterTail₀ cfgs (dats m) 0 (V0 m) [hostOps1] c main_v21 = result m c := by
  unfold Pipeline.afterTail₀
  show StableHlo.after hostOps1 (exitVal m c) (Proc.devRef .tc main_v21) = _
  after_results
  rw [exit_dense, exit_arg4, exit_arg5, exit_arg6, dense_eq]
  rfl

end Cert.KernelIdeal.Support

end
-- ==== Proof.KernelRun.lean ====
/-
  The kernel's run with its result named: every fair execution ends with the result buffer holding
  the message-passing function of the two-layer array of the features, and the seven argument
  arrays as they were launched.
-/
import proofs.«406509_j75488345194747_3_alg».proof.Proof.KernelTail

noncomputable section

namespace Cert.KernelIdeal.Support

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer is no window's array, so it ends as the host operations after the region leave
    it; the windows' input arrays end as the region found them, the other arguments are written by
    no host operation. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Support

end
-- ==== Proof.lean ====
/- The proof of `Cert.Claim` (proofs.«406509_j75488345194747_3_alg».proof.Defs).

   The kernel is a two-layer graph convolution: a dense part `support = max (x · W1 + b1, 0) · W2`
   computed by a pipelined region over 20 blocks of 5000 rows, then message passing on the host —
   row `src e` of `support` scaled by the weight of edge `e`, summed into row `dst e`, plus `b2`.
   The reference computes the dense part as two whole matrix products and applies the same
   message passing.

   At the ideal instance the narrowing of the matrix products' operands is the identity and a
   matrix product into a zero accumulator is the plain sum over the contracted axis, so both dense
   parts are, row by row, one function of the row (Proof/DenseRow.lean): for the reference by
   reading its stages at an index (Proof/RefDense.lean), for the kernel by reading what the body
   stores at an entry (Proof/KernelRow.lean) and that the 20 written blocks are the blocks of one
   array and cover it (Proof/KernelSupport.lean).  The message passing is carried as one function
   of the array it is applied to (`aggregate`, Proof/RefDense.lean) and never opened
   (Proof/KernelTail.lean, Proof/KernelRun.lean).  No sum is reordered and nothing is distributed:
   the precondition is not used by the value part.

   The two kernel programs' frames are the generated ones; the reference's frame is its generated
   run with the result dropped; the idealization rewrote nothing, so `preserves` is `True`. -/
import proofs.«406509_j75488345194747_3_alg».proof.Defs
import proofs.«406509_j75488345194747_3_alg».proof.Proof.Gen.Kernel
import proofs.«406509_j75488345194747_3_alg».proof.Proof.Gen.Kernel.Skeleton
import proofs.«406509_j75488345194747_3_alg».proof.Proof.Gen.Kernel.Launch
import proofs.«406509_j75488345194747_3_alg».proof.Proof.Gen.Kernel.Points
import proofs.«406509_j75488345194747_3_alg».proof.Proof.Gen.Kernel.Frame
import proofs.«406509_j75488345194747_3_alg».proof.Proof.Gen.KernelIdeal
import proofs.«406509_j75488345194747_3_alg».proof.Proof.Gen.KernelIdeal.Skeleton
import proofs.«406509_j75488345194747_3_alg».proof.Proof.Gen.KernelIdeal.Launch
import proofs.«406509_j75488345194747_3_alg».proof.Proof.Gen.KernelIdeal.Points
import proofs.«406509_j75488345194747_3_alg».proof.Proof.Gen.KernelIdeal.Frame
import proofs.«406509_j75488345194747_3_alg».proof.Proof.Gen.ReferenceIdeal
import proofs.«406509_j75488345194747_3_alg».proof.Proof.Gen.ReferenceIdeal.Run
import proofs.«406509_j75488345194747_3_alg».proof.Proof.Gen.ReferenceIdeal.Read
import proofs.«406509_j75488345194747_3_alg».proof.Proof.Gen.Pre_finite_inputs
import proofs.«406509_j75488345194747_3_alg».proof.Proof.RefDense
import proofs.«406509_j75488345194747_3_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the message passing of the same dense array: the kernel's by its run
    read (`Support.run`), the reference's by its run's term, which is `aggregate` of its dense part
    (`result_eq`), and that dense part is the two layers row by row (`support_eq`); the argument
    arrays agree. -/
theorem algebraic : Cert.algebraic_KernelIdeal_ReferenceIdeal := by
  intro m ρ m' ρ' _ hagree
  refine ⟨fun c => Cert.KernelIdeal.Support.result m c, Cert.KernelIdeal.Support.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v25_eq, Cert.ReferenceIdeal.Dense.result_eq,
    Cert.ReferenceIdeal.Dense.support_eq, a0, a1, a2, a3, a4, a5, a6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
